-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8x4096x256 .f32) (main_arg1 : FVec F S256x256 .f32) (main_arg2 : FVec F S256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8x4096x256 : Shape := ⟨3, ![8, 4096, 256]⟩
abbrev S256x256 : Shape := ⟨2, ![256, 256]⟩
abbrev S256 : Shape := ⟨1, ![256]⟩
abbrev S32768x256 : Shape := ⟨2, ![32768, 256]⟩
abbrev S4096x256 : Shape := ⟨2, ![4096, 256]⟩
abbrev S1x256 : Shape := ⟨2, ![1, 256]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S32768x256, .f32⟩
  | .hbm, ⟨4, _⟩ => ⟨S32768x256, .f32⟩
  | .hbm, ⟨5, _⟩ => ⟨S8x4096x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S256, .f32⟩
  | .local _ .vmem, ⟨4, _⟩ => ⟨S4096x256, .f32⟩
  | .local _ .vmem, ⟨5, _⟩ => ⟨S4096x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x256_S32768x256 : S8x4096x256.ShapeCasts S32768x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S32768x256_S8x4096x256 : S32768x256.ShapeCasts S8x4096x256
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S32768x256.size a
  hwx0_3 : ∀ i : grid0.Coords, EltTy.bits .f32 = 32 ∨ (Rect.block (s := S32768x256) S4096x256.size (cc0_transform_3 i) (hinb0_3 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S1x1x256 : Shape := ⟨3, ![1, 1, 256]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S8x4096x256, .f32⟩
  | .hbm, ⟨4, _⟩ => ⟨S1x1x256, .f32⟩
  | .hbm, ⟨5, _⟩ => ⟨S8x4096x256, .f32⟩
  | .hbm, ⟨6, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  dot_S8x4096x256_S256x256_S8x4096x256_2_1_01_0_n_n_wf : DotDims.WF S8x4096x256 S256x256 S8x4096x256 [2] [1] [0, 1] [0] [] []

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf

class Facts : Prop extends Facts₀ where

variable [Facts]
-- ==== Proof.Affine.lean ====
/-
  The function both programs compute: a dense affine layer applied to every row of a batch.
  For an input `x` of shape [8, 4096, 256], a weight matrix `w` of shape [256, 256] (one row per
  output feature) and a bias `b` of length 256,

      out[r, s, o] = (∑ k < 256, x[r, s, k] · w[o, k]) + b[o]

  on the extended reals. The sum runs over the input features, the factor order is input times
  weight, and the bias is added once, after the sum. The same map over the flattened batch — rows
  `p = r · 4096 + s` of a [32768, 256] array — is `affineRows`; the two differ only in how a row
  is addressed.
-/
import Idealize.ShloMosaic.Lib.ValueIdx
import Idealize.ShloMosaic.PureOps.Ideal

noncomputable section

namespace Cert.Affine

open Idealize.ShloMosaic Idealize.ShloMosaic.ValueIdx

/-- The batched input and the result: 8 sequences of 4096 rows of 256 features. -/
abbrev SBatch : Shape := ⟨3, ![8, 4096, 256]⟩
/-- The same rows, flattened: 32768 rows of 256 features. -/
abbrev SRows : Shape := ⟨2, ![32768, 256]⟩
/-- The weight matrix: one row of 256 input weights per output feature. -/
abbrev SWeight : Shape := ⟨2, ![256, 256]⟩
/-- The bias: one entry per output feature. -/
abbrev SBias : Shape := ⟨1, ![256]⟩

/-- One entry of the layer's output: the inner product of input row `(r, s)` with weight row `o`,
    plus the bias of feature `o`. -/
def affineAt (x : SBatch.Idx → EReal) (w : SWeight.Idx → EReal) (b : SBias.Idx → EReal)
    (r : Fin 8) (s : Fin 4096) (o : Fin 256) : EReal :=
  (∑ k : Fin 256, x (ix3 r s k) * w (ix2 o k)) + b (ix1 o)

/-- The layer's output as one array. -/
def affine (x : SBatch.Idx → EReal) (w : SWeight.Idx → EReal) (b : SBias.Idx → EReal) : SBatch.Idx → EReal :=
  fun i => affineAt x w b (i 0) (i 1) (i 2)

/-- One entry of the layer's output over flattened rows: row `p`, feature `o`. -/
def affineRowsAt (x : SRows.Idx → EReal) (w : SWeight.Idx → EReal) (b : SBias.Idx → EReal)
    (p : Fin 32768) (o : Fin 256) : EReal :=
  (∑ k : Fin 256, x (ix2 p k) * w (ix2 o k)) + b (ix1 o)

/-- The layer's output over flattened rows as one array. -/
def affineRows (x : SRows.Idx → EReal) (w : SWeight.Idx → EReal) (b : SBias.Idx → EReal) : SRows.Idx → EReal :=
  fun j => affineRowsAt x w b (j 0) (j 1)

end Cert.Affine

end
-- ==== Proof.RefAffine.lean ====
/-
  The reference is the affine layer. Its four host operations are a contraction of the input's
  feature axis with the weight's second axis, two broadcasts that spread the bias over every row, and
  an addition. Read at an output index `(r, s, o)` the contraction is the sum over `k` of
  `x[r, s, k] · w[o, k]`, the broadcast bias is `b[o]`, and their sum is `affine x w b` there.
-/
import proofs.«161470_j34600256537491_1_alg».proof.Proof.Gen.ReferenceIdeal.Read
import proofs.«161470_j34600256537491_1_alg».proof.Proof.Affine

noncomputable section

namespace Cert.ReferenceIdeal.RefValue

open Cert.ReferenceIdeal Cert.ReferenceIdeal.Gen Idealize.ShloMosaic Idealize.ShloMosaic.ValueIdx

/-- The contraction reads the input at row `(r, s)`, feature `k`. -/
theorem lhs_index (i : S8x4096x256.Idx) (k : Fin 256) : Read.lidx_main_v0 i k = ix3 (i 0) (i 1) k :=
  funext fun a => Fin.ext (by match a with | ⟨0, _⟩ => rfl | ⟨1, _⟩ => rfl | ⟨2, _⟩ => rfl)

/-- The contraction reads the weight at row `o`, column `k`. -/
theorem rhs_index (i : S8x4096x256.Idx) (k : Fin 256) : Read.ridx_main_v0 i k = ix2 (i 2) k :=
  funext fun a => Fin.ext (by match a with | ⟨0, _⟩ => rfl | ⟨1, _⟩ => rfl)

/-- The two broadcasts read the bias at feature `o`. -/
theorem bias_index (i : S8x4096x256.Idx) : Read.idx_main_v1 (Read.idx_main_v2 i) = ix1 (i 2) :=
  funext fun a => Fin.ext (by match a with | ⟨0, _⟩ => rfl)

/-- The reference's result is the affine layer of its arguments. -/
theorem result_eq (x : FVec Ideal S8x4096x256 .f32) (w : FVec Ideal S256x256 .f32) (b : FVec Ideal S256 .f32) :
    Read.val_main_v3 (F := Ideal) x w b = Cert.Affine.affine x w b := by
  funext i
  rw [Read.val_main_v3_apply, Read.val_main_v0_apply, Read.val_main_v2_apply, Read.val_main_v1_apply]
  simp only [lhs_index, rhs_index, bias_index]
  rfl

end Cert.ReferenceIdeal.RefValue

end
-- ==== Proof.BlockValue.lean ====
/-
  What the kernel body computes from one block. The body loads a block of 4096 input rows, the
  whole weight matrix and the whole bias, multiplies the rows by the transposed weight matrix
  (both operands narrowed to a shorter float format first, which changes nothing on the extended
  reals) into a zero accumulator, and adds the bias broadcast over the rows. Read at row `p` and
  output feature `q` of the block, the stored value is

      (∑ k < 256, rows[p, k] · w[q, k]) + bias[q].

  The matrix product contracts the second axis of both operands, so its left factor is read at
  `(p, k)` and its right factor at `(q, k)`; the bias is first viewed as one row of 256 entries and
  then repeated down the 4096 rows, so it is read at `q` whatever `p` is.
-/
import proofs.«161470_j34600256537491_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-! ## The matrix product's operand indices, axis by axis -/

/-- The left operand's row is the output's row. -/
theorem lhs_row (j : S4096x256.Idx) (u : dot_S4096x256_S256x256_S4096x256_1_1_0_0_n_n.contr.Idx) :
    (dot_S4096x256_S256x256_S4096x256_1_1_0_0_n_n.lhsIdx j u 0).val = (j 0).val := by
  unfold DotDims.lhsIdx
  rw [dif_neg (show ¬(0 : Fin S4096x256.rank) ∈ dot_S4096x256_S256x256_S4096x256_1_1_0_0_n_n.lhsBatch by decide), dif_pos (show (0 : Fin S4096x256.rank) ∈ dot_S4096x256_S256x256_S4096x256_1_1_0_0_n_n.lhsNonContracting by decide)]
  rfl
/-- The left operand's column is the contracted index. -/
theorem lhs_col (j : S4096x256.Idx) (u : dot_S4096x256_S256x256_S4096x256_1_1_0_0_n_n.contr.Idx) :
    (dot_S4096x256_S256x256_S4096x256_1_1_0_0_n_n.lhsIdx j u 1).val = (u ⟨0, by decide⟩).val :=
  dot_S4096x256_S256x256_S4096x256_1_1_0_0_n_n.lhsIdx_val_of_single rfl j u
/-- The right operand's row is the output's column: the weight matrix enters transposed. -/
theorem rhs_row (j : S4096x256.Idx) (u : dot_S4096x256_S256x256_S4096x256_1_1_0_0_n_n.contr.Idx) :
    (dot_S4096x256_S256x256_S4096x256_1_1_0_0_n_n.rhsIdx j u 0).val = (j 1).val := by
  unfold DotDims.rhsIdx
  rw [dif_neg (show ¬(0 : Fin S256x256.rank) ∈ dot_S4096x256_S256x256_S4096x256_1_1_0_0_n_n.rhsBatch by decide), dif_pos (show (0 : Fin S256x256.rank) ∈ dot_S4096x256_S256x256_S4096x256_1_1_0_0_n_n.rhsNonContracting by decide)]
  rfl
/-- The right operand's column is the contracted index. -/
theorem rhs_col (j : S4096x256.Idx) (u : dot_S4096x256_S256x256_S4096x256_1_1_0_0_n_n.contr.Idx) :
    (dot_S4096x256_S256x256_S4096x256_1_1_0_0_n_n.rhsIdx j u 1).val = (u ⟨0, by decide⟩).val :=
  dot_S4096x256_S256x256_S4096x256_1_1_0_0_n_n.rhsIdx_val_of_single rfl j u

/-! ## The matrix product and the bias at an index -/

/-- The product into a zero accumulator, at row `p` and column `q`: the inner product of row `p` of the
    left operand with row `q` of the right. -/
theorem product_at (a : FVec Ideal S4096x256 .bf16) (w : FVec Ideal S256x256 .bf16) (p : Fin 4096) (q : Fin 256) :
    matmul dot_S4096x256_S256x256_S4096x256_1_1_0_0_n_n none a w (constant S4096x256 .f32 0x00000000#32) (ix2 p q)
      = ∑ k : Fin 256, a (ix2 p k) * w (ix2 q k) := by
  simp only [matmul]
  rw [Ideal.matmul_constant_zero_apply, ← Equiv.sum_comp (contrEquiv1 dot_S4096x256_S256x256_S4096x256_1_1_0_0_n_n 256 rfl rfl).symm]
  refine Finset.sum_congr rfl fun k _ => ?_
  have hk := contrEquiv1_symm_val dot_S4096x256_S256x256_S4096x256_1_1_0_0_n_n 256 rfl rfl k
  have el : dot_S4096x256_S256x256_S4096x256_1_1_0_0_n_n.lhsIdx (ix2 p q) ((contrEquiv1 dot_S4096x256_S256x256_S4096x256_1_1_0_0_n_n 256 rfl rfl).symm k) = ix2 p k := funext fun d => Fin.ext (by
    match d with
    | ⟨0, _⟩ => exact lhs_row _ _
    | ⟨1, _⟩ => exact (lhs_col _ _).trans hk)
  have er : dot_S4096x256_S256x256_S4096x256_1_1_0_0_n_n.rhsIdx (ix2 p q) ((contrEquiv1 dot_S4096x256_S256x256_S4096x256_1_1_0_0_n_n 256 rfl rfl).symm k) = ix2 q k := funext fun d => Fin.ext (by
    match d with
    | ⟨0, _⟩ => exact rhs_row _ _
    | ⟨1, _⟩ => exact (rhs_col _ _).trans hk)
  rw [el, er]

/-- The bias, viewed as one row and repeated down the block, at row `p` and column `q`: entry `q`. -/
theorem bias_at (b : Vec Ideal S256 .f32) (p : Fin 4096) (q : Fin 256) :
    broadcastTo S4096x256 (shapeCast S1x256 b shapeCasts_S256_S1x256) broadcasts_S1x256_S4096x256 (ix2 p q) = b (ix1 q) := by
  rw [broadcastTo_apply _ broadcasts_S1x256_S4096x256 (ix2 p q) (ix2 (⟨0, Nat.one_pos⟩ : Fin 1) q) (fun d => match d with
    | ⟨0, _⟩ => by show 0 = if (1 : Nat) = 1 then 0 else _; rw [if_pos rfl]
    | ⟨1, _⟩ => by show q.val = if (256 : Nat) = 1 then 0 else q.val; rw [if_neg (by decide)])]
  exact shapeCast_apply b shapeCasts_S256_S1x256 _ (ix1 q) (by
    rw [Shape.rowMajor_val_one, Shape.rowMajor_val_two]
    show q.val = 0 * 256 + q.val
    omega)

/-! ## The stored value -/

/-- The value the body stores, at row `p` and feature `q` of the block. -/
theorem payload_at (rows : Vec Ideal S4096x256 .f32) (w : Vec Ideal S256x256 .f32) (b : Vec Ideal S256 .f32)
    (p : Fin 4096) (q : Fin 256) :
    k0_pay1 (F := Ideal) rows w b (ix2 p q) = (∑ k : Fin 256, rows (ix2 p k) * w (ix2 q k)) + b (ix1 q) := by
  unfold k0_pay1
  show matmul (F := Ideal) dot_S4096x256_S256x256_S4096x256_1_1_0_0_n_n none (truncf (F := Ideal) .bf16 (shapeCast S4096x256 rows shapeCasts_S4096x256_S4096x256) bitsLt_bf16_f32)
      (truncf (F := Ideal) .bf16 w bitsLt_bf16_f32) (constant (F := Ideal) S4096x256 .f32 0x00000000#32) (ix2 p q)
    + broadcastTo S4096x256 (shapeCast S1x256 b shapeCasts_S256_S1x256) broadcasts_S1x256_S4096x256 (ix2 p q) = _
  rw [product_at, bias_at, shapeCast_self]
  rfl

end Cert.KernelIdeal.BlockValue

end
-- ==== Proof.Flatten.lean ====
/-
  Flattening the batch commutes with the affine layer. Viewing the [8, 4096, 256] input as 32768
  rows (row `p = r · 4096 + s`, the row-major position of `(r, s)`), applying the layer row by row, and
  viewing the [32768, 256] result as [8, 4096, 256] again gives the layer on the batched input: a
  change of shape keeps every element's row-major position, and position `(r · 4096 + s) · 256 + k`
  is entry `(r, s, k)` of the one and entry `(p, k)` of the other.
-/
import proofs.«161470_j34600256537491_1_alg».proof.Proof.Affine
import Idealize.ShloMosaic.Lib.Pipeline.Value

noncomputable section

namespace Cert.Affine

open Idealize.ShloMosaic Idealize.ShloMosaic.ValueIdx

/-- The layer over flattened rows of the flattened input, unflattened, is the layer. -/
theorem unflatten_affineRows (x : SBatch.Idx → EReal) (w : SWeight.Idx → EReal) (b : SBias.Idx → EReal)
    (hdown : SBatch.ShapeCasts SRows) (hup : SRows.ShapeCasts SBatch) :
    shapeCast SBatch (affineRows (shapeCast SRows x hdown) w b) hup = affine x w b := by
  funext i
  have hi0 : (i 0).val < 8 := (i 0).isLt
  have hi1 : (i 1).val < 4096 := (i 1).isLt
  -- the flattened row of `(r, s)`
  let p : Fin 32768 := ⟨(i 0).val * 4096 + (i 1).val, by omega⟩
  rw [shapeCast_apply _ hup i (ix2 p (i 2)) (by
    rw [Shape.rowMajor_val_two, Shape.rowMajor_val_three]; rfl)]
  have hx : ∀ k : Fin 256, shapeCast SRows x hdown (ix2 p k) = x (ix3 (i 0) (i 1) k) := fun k =>
    shapeCast_apply x hdown (ix2 p k) (ix3 (i 0) (i 1) k) (by
      rw [Shape.rowMajor_val_two, Shape.rowMajor_val_three]; rfl)
  show (∑ k : Fin 256, shapeCast SRows x hdown (ix2 p k) * w (ix2 (i 2) k)) + b (ix1 (i 2)) = _
  simp only [hx]
  rfl

end Cert.Affine

end
-- ==== Proof.ArrayValue.lean ====
/-
  The kernel's result array. The program flattens the input to 32768 rows, runs the body on 8
  consecutive blocks of 4096 rows — each grid point reads its own block of rows together with the
  whole weight matrix and the whole bias, and writes its own block of output rows — and views the
  32768 output rows as the batched result again.

  * Block `t` of the output holds, at row `p` and feature `q`, the affine layer of flattened row
    `t · 4096 + p`: the input window's block index equals the output window's on the row axis, and
    every other block index is zero, so each loaded block is the input array read where the output
    block's rectangle says.
  * Row `n` of the output lies in block `n / 4096`, so the 8 blocks cover the array and the array
    after the run is the layer over flattened rows.
  * Unflattened, that is the layer on the batched input (`unflatten_affineRows`).
-/
import proofs.«161470_j34600256537491_1_alg».proof.Proof.Gen.KernelIdeal.Frame
import proofs.«161470_j34600256537491_1_alg».proof.Proof.BlockValue
import proofs.«161470_j34600256537491_1_alg».proof.Proof.Flatten
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## One block -/

theorem zero2 : (![0, 0] : Fin 2 → Nat) = fun _ => 0 := funext fun a => by fin_cases a <;> rfl
theorem zero1 : (![0] : Fin 1 → Nat) = fun _ => 0 := funext fun a => by fin_cases a; rfl

/-- What the body leaves in the output block, from the three blocks it loads whole: at row `p` and
    feature `q`, the inner product of row `p` with weight row `q`, plus bias entry `q`. -/
theorem stored_at (rows : Vec Ideal S4096x256 .f32) (w : Vec Ideal S256x256 .f32) (b : Vec Ideal S256 .f32)
    (p : Fin 4096) (q : Fin 256) :
    out0_3 (F := Ideal) rows w b (ix2 p q) = (∑ k : Fin 256, rows (ix2 p k) * w (ix2 q k)) + b (ix1 q) := by
  unfold out0_3
  rw [View.canon_unit_zero zero2]
  simp only [View.ld_unit_zero (S := S4096x256) zero2, View.ld_unit_zero (S := S256x256) zero2,
    View.ld_unit_zero (S := S256) zero1]
  exact BlockValue.payload_at rows w b p q

/-- The input as the region finds it: the batched argument viewed as 32768 rows. -/
theorem entry_rows (c : Dev nD) :
    (V m c main_v0 : S32768x256.Idx → EReal)
      = shapeCast S32768x256 (m ((c : Thread nD τ).loc main_arg0)) shapeCasts_S8x4096x256_S32768x256 := by
  show StableHlo.after hostOps0 (fun b => m (c, b)) (Proc.devRef .tc main_v0) = _
  after_results
  rfl

/-- The block indices over the grid: at point `t` the input rows' and the output rows' block index is
    `t` on the row axis; every other block index is zero. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the layer over flattened rows. -/
theorem flushed_eq (c : Dev nD) (t : Fin cfg0.N) :
    (dats m 0 c).flushed 3 t = ((cfg0.win 3).blk t).view.read (Elt Ideal)
      (Cert.Affine.affineRows (V m c main_v0) (V m c main_arg1) (V m c main_arg2)) := by
  show (cfg0.win 3).cut (grid0.coords t) ((dats m 0 c).after 3 t) = _
  rw [after0_3]
  obtain ⟨e00, e01, e10, e11, e20, e30, e31⟩ := block_index t
  funext y
  obtain ⟨p, q, rfl⟩ : ∃ (p : Fin 4096) (q : Fin 256), y = ix2 p q := ⟨y 0, y 1, eq_ix2 y⟩
  show out0_3 (iblk m c 0 t) (iblk m c 1 t) (iblk m c 2 t) (ix2 p q)
    = Cert.Affine.affineRowsAt (V m c main_v0) (V m c main_arg1) (V m c main_arg2)
        ((((cfg0.win 3).blk t).view.emb (ix2 p q)) 0) ((((cfg0.win 3).blk t).view.emb (ix2 p q)) 1)
  refine (stored_at (iblk m c 0 t) (iblk m c 1 t) (iblk m c 2 t) p q).trans ?_
  -- each loaded block is its array read at the output block's row and feature
  have hrow : ∀ k : Fin 256, iblk m c 0 t (ix2 p k)
      = V m c main_v0 (ix2 ((((cfg0.win 3).blk t).view.emb (ix2 p q)) 0) k) := fun k => by
    show V m c main_v0 (((cfg0.win 0).blk t).view.emb (ix2 p k)) = _
    refine congrArg (V m c main_v0) (funext fun a => Fin.ext ?_)
    match a with
    | ⟨0, _⟩ => show win0_0.index t (0 : Fin 2) * 4096 + 1 * p.val = win0_3.index t (0 : Fin 2) * 4096 + 1 * p.val; omega
    | ⟨1, _⟩ => show win0_0.index t (1 : Fin 2) * 256 + 1 * k.val = k.val; omega
  have hw : ∀ k : Fin 256, iblk m c 1 t (ix2 q k)
      = V m c main_arg1 (ix2 ((((cfg0.win 3).blk t).view.emb (ix2 p q)) 1) k) := fun k => by
    show V m c main_arg1 (((cfg0.win 1).blk t).view.emb (ix2 q k)) = _
    refine congrArg (V m c main_arg1) (funext fun a => Fin.ext ?_)
    match a with
    | ⟨0, _⟩ => show win0_1.index t (0 : Fin 2) * 256 + 1 * q.val = win0_3.index t (1 : Fin 2) * 256 + 1 * q.val; omega
    | ⟨1, _⟩ => show win0_1.index t (1 : Fin 2) * 256 + 1 * k.val = k.val; omega
  have hb : iblk m c 2 t (ix1 q) = V m c main_arg2 (ix1 ((((cfg0.win 3).blk t).view.emb (ix2 p q)) 1)) := by
    show V m c main_arg2 (((cfg0.win 2).blk t).view.emb (ix1 q)) = _
    refine congrArg (V m c main_arg2) (funext fun a => Fin.ext ?_)
    match a with
    | ⟨0, _⟩ => show win0_2.index t (0 : Fin 1) * 256 + 1 * q.val = win0_3.index t (1 : Fin 2) * 256 + 1 * q.val; omega
  simp only [hrow, hw, hb]
  rfl

/-! ## The blocks cover the array -/

/-- An index of the output array is in point `t`'s block iff each coordinate is in the block's range. -/
theorem mem_block (t : Fin cfg0.N) (i : S32768x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v1).slice (win0_3.rect t)).set ↔ _
  rw [View.set_slice_whole, Rect.mem_set_unit]
  exact Iff.rfl

/-- Row `n` is written back by point `n / 4096`. -/
theorem covered (i : S32768x256.Idx) :
    ∃ t : Fin cfg0.N, (cfg0.win 3).flush t = true ∧ i ∈ ((cfg0.win 3).blk t).view.set := by
  have hi0 : (i 0).val < 32768 := (i 0).isLt
  have hi1 : (i 1).val < 256 := (i 1).isLt
  have hN : (i 0).val / 4096 < cfg0.N := by show _ < grid0.N; rw [N_0]; omega
  obtain ⟨-, -, -, -, -, e30, e31⟩ := block_index ⟨(i 0).val / 4096, hN⟩
  refine ⟨⟨(i 0).val / 4096, hN⟩, flush0_3 _, ?_⟩
  rw [mem_block]
  intro a
  match a with
  | ⟨0, _⟩ =>
    show win0_3.index ⟨(i 0).val / 4096, hN⟩ (0 : Fin 2) * 4096 ≤ (i 0).val
      ∧ (i 0).val < win0_3.index ⟨(i 0).val / 4096, hN⟩ (0 : Fin 2) * 4096 + 4096
    rw [e30]
    show (i 0).val / 4096 * 4096 ≤ (i 0).val ∧ (i 0).val < (i 0).val / 4096 * 4096 + 4096
    omega
  | ⟨1, _⟩ =>
    show win0_3.index ⟨(i 0).val / 4096, hN⟩ (1 : Fin 2) * 256 ≤ (i 1).val
      ∧ (i 1).val < win0_3.index ⟨(i 0).val / 4096, hN⟩ (1 : Fin 2) * 256 + 256
    omega

/-- The output rows after the run: the layer over the flattened rows the region found. -/
theorem final_rows (c : Dev nD) :
    (dats m 0 c).arrAt 3 cfg0.N = Cert.Affine.affineRows (V m c main_v0) (V m c main_arg1) (V m c main_arg2) :=
  (dats m 0 c).arrAt_eq_of_cover 3 _ (fun t _ => flushed_eq m c t) covered

/-! ## The result -/

/-- The program's result: the output rows viewed as the batch again, which is the affine layer of the
    arguments. -/
theorem result_eq (c : Dev nD) :
    Pipeline.afterTail₀ cfgs (dats m) 0 (V0 m) [hostOps1] c main_v2
      = Cert.Affine.affine (m ((c : Thread nD τ).loc main_arg0)) (m ((c : Thread nD τ).loc main_arg1))
          (m ((c : Thread nD τ).loc main_arg2)) := by
  unfold Pipeline.afterTail₀
  show StableHlo.after hostOps1 _ (Proc.devRef .tc main_v2) = _
  after_results
  have hrows : Pipeline.withArrays (cfgs 0).spec c (V0 m c) (fun w => (dats m 0 c).arrAt w (cfgs 0).N)
      (Proc.devRef .tc main_v1)
      = Cert.Affine.affineRows (V m c main_v0) (V m c main_arg1) (V m c main_arg2) :=
    (Pipeline.withArrays_arr spec0 launch0.win.arr_inj c _ _ 3).trans (final_rows m c)
  rw [hrows, entry_rows, V_main_arg1, V_main_arg2]
  exact Cert.Affine.unflatten_affineRows _ _ _ _ _

/-! ## The run, read -/

/-- Every weakly fair execution of the program terminates with its result at the affine layer of the
    arguments and the arguments unchanged. -/
theorem run : θ_run defs (onTc (τ := τ) (main (F := Ideal))) ⟨m, fun _ => 0, ρ⟩ fun r => ∀ c : Dev nD,
      r.2.mem ((c.tc : Thread nD τ).loc main_v2)
        = Cert.Affine.affine (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ArrayValue

end
-- ==== Proof.lean ====
/-
  A dense affine layer, `out[r, s, o] = (∑ k < 256, x[r, s, k] · w[o, k]) + bias[o]`, computed two ways.

  The kernel flattens the [8, 4096, 256] input to 32768 rows, and on each of 8 blocks of 4096 rows
  multiplies the block by the transposed weight matrix into a zero accumulator and adds the bias
  broadcast over the rows; the 32768 output rows are then viewed as [8, 4096, 256] again. The
  reference contracts the input's feature axis with the weight's second axis directly on the batched
  input and adds the bias broadcast over batch and sequence.

  On the extended reals both are the same sum of the same products in the same factor order followed
  by the same addition, so no algebraic law beyond reading each operation at an index is needed, and
  the finiteness of the inputs is never used:
    * `Affine` states the layer, batched and over flattened rows;
    * `Flatten` shows that flattening, applying the layer row by row and unflattening is the layer;
    * `RefAffine` reads the reference's four operations at an index: they are the layer;
    * `BlockValue` reads the kernel body's stored value at an index of a block;
    * `ArrayValue` reads each loaded block off its array, shows that the 8 blocks cover the output rows,
      and passes through the two changes of shape around the region.
  The kernel does not rewrite any operation for its idealized reading, so that claim is trivial; the
  three termination-and-frame claims are the generated frames and the reference's generated run.
-/
import proofs.«161470_j34600256537491_1_alg».proof.Defs
import proofs.«161470_j34600256537491_1_alg».proof.Proof.Gen.Kernel
import proofs.«161470_j34600256537491_1_alg».proof.Proof.Gen.Kernel.Skeleton
import proofs.«161470_j34600256537491_1_alg».proof.Proof.Gen.Kernel.Launch
import proofs.«161470_j34600256537491_1_alg».proof.Proof.Gen.Kernel.Points
import proofs.«161470_j34600256537491_1_alg».proof.Proof.Gen.Kernel.Frame
import proofs.«161470_j34600256537491_1_alg».proof.Proof.Gen.KernelIdeal
import proofs.«161470_j34600256537491_1_alg».proof.Proof.Gen.KernelIdeal.Skeleton
import proofs.«161470_j34600256537491_1_alg».proof.Proof.Gen.KernelIdeal.Launch
import proofs.«161470_j34600256537491_1_alg».proof.Proof.Gen.KernelIdeal.Points
import proofs.«161470_j34600256537491_1_alg».proof.Proof.Gen.KernelIdeal.Frame
import proofs.«161470_j34600256537491_1_alg».proof.Proof.Gen.ReferenceIdeal
import proofs.«161470_j34600256537491_1_alg».proof.Proof.Gen.ReferenceIdeal.Run
import proofs.«161470_j34600256537491_1_alg».proof.Proof.Gen.ReferenceIdeal.Read
import proofs.«161470_j34600256537491_1_alg».proof.Proof.Gen.Pre_finite_inputs
import proofs.«161470_j34600256537491_1_alg».proof.Proof.RefAffine
import proofs.«161470_j34600256537491_1_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result at the affine layer of the arguments: the kernel's result array
    by the blocks it writes back and the two changes of shape around them, the reference's by reading
    its contraction, broadcasts and addition at an index; the arguments agree by hypothesis. -/
theorem algebraic : Cert.algebraic_KernelIdeal_ReferenceIdeal := by
  intro m ρ m' ρ' _ hagree
  refine ⟨fun c => Cert.Affine.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v3_eq]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
